-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_0)) (v2 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_v7_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S4x1024x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  main_v28

def fn {F : FTy → Type} [FloatOps F] (main_arg0 : FVec F S16384x1024 .f32) (main_arg1 : FVec F S16384x1024 .f32) (main_arg2 : FVec F S16384x1024 .f32) (main_arg3 : FVec F S4x1024x1024 .f32) (main_arg4 : FVec F S4x1024 .f32) (main_arg5 : FVec F S4x1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_v13 main_v16
-- ==== Kernel.lean ====
abbrev S16384x1024 : Shape := ⟨2, ![16384, 1024]⟩
abbrev S4x1024x1024 : Shape := ⟨3, ![4, 1024, 1024]⟩
abbrev S4x1024 : Shape := ⟨2, ![4, 1024]⟩
abbrev S1024x4x1024 : Shape := ⟨3, ![1024, 4, 1024]⟩
abbrev S1024x4096 : Shape := ⟨2, ![1024, 4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 15
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S1024x4x1024, .f32⟩
  | .hbm, ⟨7, _⟩ => ⟨S1024x4096, .f32⟩
  | .hbm, ⟨8, _⟩ => ⟨S1024x4096, .bf16⟩
  | .hbm, ⟨9, _⟩ => ⟨S1024x4x1024, .f32⟩
  | .hbm, ⟨10, _⟩ => ⟨S1024x4096, .f32⟩
  | .hbm, ⟨11, _⟩ => ⟨S1024x4096, .bf16⟩
  | .hbm, ⟨12, _⟩ => ⟨S1x4096, .f32⟩
  | .hbm, ⟨13, _⟩ => ⟨S16384x1024, .f32⟩
  | .hbm, ⟨14, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S4x1024x1024_S1024x4x1024_2_0_1 : S4x1024x1024.Transposes [2, 0, 1] S1024x4x1024
  shapeCasts_S1024x4x1024_S1024x4096 : S1024x4x1024.ShapeCasts S1024x4096
  bitsLt_bf16_f32 : FTy.bits .bf16 < FTy.bits .f32
  shapeCasts_S4x1024_S1x4096 : S4x1024.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4x1024x1024 : Shape := ⟨3, ![4, 1024, 1024]⟩
abbrev S4x1024 : Shape := ⟨2, ![4, 1024]⟩
abbrev S4x1024x16384 : Shape := ⟨3, ![4, 1024, 16384]⟩
abbrev S4x16384x1024 : Shape := ⟨3, ![4, 16384, 1024]⟩
abbrev S4x1x1024 : Shape := ⟨3, ![4, 1, 1024]⟩
abbrev S1x16384x1024 : Shape := ⟨3, ![1, 16384, 1024]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024x16384, .f32⟩
  | .hbm, ⟨7, _⟩ => ⟨S4x16384x1024, .f32⟩
  | .hbm, ⟨8, _⟩ => ⟨S4x1024x16384, .f32⟩
  | .hbm, ⟨9, _⟩ => ⟨S4x16384x1024, .f32⟩
  | .hbm, ⟨10, _⟩ => ⟨S4x16384x1024, .f32⟩
  | .hbm, ⟨11, _⟩ => ⟨S4x1x1024, .f32⟩
  | .hbm, ⟨12, _⟩ => ⟨S4x16384x1024, .f32⟩
  | .hbm, ⟨13, _⟩ => ⟨S4x16384x1024, .f32⟩
  | .hbm, ⟨14, _⟩ => ⟨S1x16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S1x16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S1x16384x1024, .f32⟩
  | .hbm, ⟨35, _⟩ => ⟨S16384x1024, .f32⟩
  | .hbm, ⟨36, _⟩ => ⟨S16384x1024, .f32⟩
  | .hbm, ⟨37, _⟩ => ⟨S1x16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]

class Facts₀ : Prop where
  transposes_S4x1024x16384_S4x16384x1024_0_2_1 : S4x1024x16384.Transposes [0, 2, 1] S4x16384x1024
  bcast_S4x1024_S4x1x1024_0_2 : S4x1024.BroadcastsInDim S4x1x1024 (![0, 2] : Fin 2 → Fin S4x1x1024.rank)
  bcast_S4x1x1024_S4x16384x1024_0_1_2 : S4x1x1024.BroadcastsInDim S4x16384x1024 (![0, 1, 2] : Fin 3 → Fin S4x16384x1024.rank)
  slices_S4x16384x1024_S1x16384x1024_0_0_0 : S4x16384x1024.Slices ![0, 0, 0] S1x16384x1024
  shapeCasts_S1x16384x1024_S16384x1024 : S1x16384x1024.ShapeCasts S16384x1024
  bcast_S_S16384x1024 : S_.BroadcastsInDim S16384x1024 (![] : Fin 0 → Fin S16384x1024.rank)
  slices_S4x16384x1024_S1x16384x1024_1_0_0 : S4x16384x1024.Slices ![1, 0, 0] S1x16384x1024
  slices_S4x16384x1024_S1x16384x1024_2_0_0 : S4x16384x1024.Slices ![2, 0, 0] S1x16384x1024
  slices_S4x16384x1024_S1x16384x1024_3_0_0 : S4x16384x1024.Slices ![3, 0, 0] S1x16384x1024
  dot_S4x1024x1024_S16384x1024_S4x1024x16384_2_1_01_0_n_n_wf : DotDims.WF S4x1024x1024 S16384x1024 S4x1024x16384 [2] [1] [0, 1] [0] [] []

variable [Facts₀]

def dot_S4x1024x1024_S16384x1024_S4x1024x16384_2_1_01_0_n_n : DotDims S4x1024x1024 S16384x1024 S4x1024x16384 where
  lhsContracting := [2]
  rhsContracting := [1]
  lhsNonContracting := [0, 1]
  rhsNonContracting := [0]
  lhsBatch := []
  rhsBatch := []
  wf := dot_S4x1024x1024_S16384x1024_S4x1024x16384_2_1_01_0_n_n_wf

class Facts : Prop extends Facts₀ where

variable [Facts]
-- ==== Proof.CellSpec.lean ====
/-
  The specification both programs are compared against: one step of an LSTM cell over a batch of 16384 rows with
  1024 input features and 1024 hidden units, on the extended reals.

  For gate `g` (0 = input, 1 = forget, 2 = candidate, 3 = output), batch row `b` and hidden unit `k` the
  pre-activation is

      gate g b k = (∑ᵢ x[b,i] · Wi[g,k,i]  +  ∑ⱼ h[b,j] · Wh[g,k,j])  +  bi[g,k],

  the new cell state is  σ(gate 1) · c + σ(gate 0) · tanh(gate 2)  and the new hidden state is
  σ(gate 3) · tanh(new cell),  with σ the logistic function `1 / (1 + e⁻ˣ)` and all arithmetic exact.
  Nothing here mentions a program: the two sides are each shown equal to these functions.
-/
import Idealize.ShloMosaic.PureOps.Ideal
import Idealize.ShloMosaic.Lib.ValueIdx

noncomputable section

open scoped BigOperators

namespace Cert.CellSpec

open Idealize.ShloMosaic Idealize.ShloMosaic.ValueIdx

/-- A batch of rows: activations, hidden states or cell states, `[16384, 1024]`. -/
abbrev Rows : Type := FVec Ideal ⟨2, ![16384, 1024]⟩ .f32
/-- The four gates' weight matrices stacked, `[4, 1024, 1024]`: gate, hidden unit, contracted feature. -/
abbrev Weights : Type := FVec Ideal ⟨3, ![4, 1024, 1024]⟩ .f32
/-- The four gates' biases, `[4, 1024]`. -/
abbrev Biases : Type := FVec Ideal ⟨2, ![4, 1024]⟩ .f32

/-- Gate `g`'s pre-activation for batch row `b` and hidden unit `k`: the input's and the hidden state's
    projections added first, the bias last. -/
def gate (x h : Rows) (Wi Wh : Weights) (bi : Biases) (g : Fin 4) (b : Fin 16384) (k : Fin 1024) : EReal :=
  (∑ i : Fin 1024, x (ix2 b i) * Wi (ix3 g k i) + ∑ j : Fin 1024, h (ix2 b j) * Wh (ix3 g k j)) + bi (ix2 g k)

/-- The new cell state: the forget gate times the old state plus the input gate times the candidate. -/
def newCell (x h c : Rows) (Wi Wh : Weights) (bi : Biases) : Rows := fun i =>
  Ideal.logistic (gate x h Wi Wh bi 1 (i 0) (i 1)) * c i
    + Ideal.logistic (gate x h Wi Wh bi 0 (i 0) (i 1)) * Ideal.tanh (gate x h Wi Wh bi 2 (i 0) (i 1))

/-- The new hidden state: the output gate times `tanh` of the new cell state. -/
def newHidden (x h c : Rows) (Wi Wh : Weights) (bi : Biases) : Rows := fun i =>
  Ideal.logistic (gate x h Wi Wh bi 3 (i 0) (i 1)) * Ideal.tanh (newCell x h c Wi Wh bi i)

end Cert.CellSpec

end
-- ==== Proof.GatesBlock.lean ====
/-
  The kernel body's pre-activation block, read at one entry.

  At a grid point the body holds a [256,1024] block of the inputs `x`, the same of the hidden states `h`, the two
  [1024,4096] weight matrices (the four gates' columns side by side) and the [1,4096] bias row. Its first value is

      pre[p, q] = (∑ᵢ x[p,i] · A[i,q]  +  ∑ᵢ h[p,i] · B[i,q])  +  bias[0,q]:

  each product of matrices is a sum over the one contracted axis (the accumulator is the zero word, and narrowing
  the operands to a shorter float format changes nothing over the extended reals), the two are added, and the bias row is
  repeated down the 256 rows.
-/
import proofs.«136531_j66984309948631_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.GatesBlock

open Cert.KernelIdeal Cert.KernelIdeal.Gen Idealize.ShloMosaic Idealize.ShloMosaic.ValueIdx

/-! ## The operand indices of the [256,1024] × [1024,4096] product -/

/-- The left operand's row is the output's row. -/
theorem lhs_row (j : S256x4096.Idx) (q : dot_S256x1024_S1024x4096_S256x4096_1_0_0_1_n_n.contr.Idx) :
    (dot_S256x1024_S1024x4096_S256x4096_1_0_0_1_n_n.lhsIdx j q 0).val = (j 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
/-- The left operand's column is the contracted coordinate. -/
theorem lhs_contr (j : S256x4096.Idx) (q : dot_S256x1024_S1024x4096_S256x4096_1_0_0_1_n_n.contr.Idx) :
    (dot_S256x1024_S1024x4096_S256x4096_1_0_0_1_n_n.lhsIdx j q 1).val = (q ⟨0, by decide⟩).val :=
  dot_S256x1024_S1024x4096_S256x4096_1_0_0_1_n_n.lhsIdx_val_of_single rfl j q
/-- The right operand's row is the contracted coordinate. -/
theorem rhs_contr (j : S256x4096.Idx) (q : dot_S256x1024_S1024x4096_S256x4096_1_0_0_1_n_n.contr.Idx) :
    (dot_S256x1024_S1024x4096_S256x4096_1_0_0_1_n_n.rhsIdx j q 0).val = (q ⟨0, by decide⟩).val :=
  dot_S256x1024_S1024x4096_S256x4096_1_0_0_1_n_n.rhsIdx_val_of_single rfl j q
/-- The right operand's column is the output's column. -/
theorem rhs_col (j : S256x4096.Idx) (q : dot_S256x1024_S1024x4096_S256x4096_1_0_0_1_n_n.contr.Idx) :
    (dot_S256x1024_S1024x4096_S256x4096_1_0_0_1_n_n.rhsIdx j q 1).val = (j 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- A product of a [256,1024] by a [1024,4096] matrix into the zero accumulator, at entry (p, q): the sum over the
    1024 contracted positions. -/
theorem product_apply (A : FVec Ideal S256x1024 .bf16) (B : FVec Ideal S1024x4096 .bf16) (p : Fin 256) (q : Fin 4096) :
    matmul dot_S256x1024_S1024x4096_S256x4096_1_0_0_1_n_n none A B (constant (F := Ideal) S256x4096 .f32 0x00000000#32) (ix2 p q)
      = ∑ i : Fin 1024, A (ix2 p i) * B (ix2 i q) := by
  simp only [matmul]
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p q) ((contrEquiv1 dot_S256x1024_S1024x4096_S256x4096_1_0_0_1_n_n 1024 rfl rfl).symm k) = ix2 p k := funext fun a => Fin.ext (by
    match a with
    | ⟨0, _⟩ => exact lhs_row _ _
    | ⟨1, _⟩ => exact (lhs_contr _ _).trans hk)
  have er : dot_S256x1024_S1024x4096_S256x4096_1_0_0_1_n_n.rhsIdx (ix2 p q) ((contrEquiv1 dot_S256x1024_S1024x4096_S256x4096_1_0_0_1_n_n 1024 rfl rfl).symm k) = ix2 k q := funext fun a => Fin.ext (by
    match a with
    | ⟨0, _⟩ => exact (rhs_contr _ _).trans hk
    | ⟨1, _⟩ => exact rhs_col _ _)
  rw [el, er]

/-- The pre-activation block at entry (p, q). -/
theorem pre_apply (x h : Vec Ideal S256x1024 .f32) (A B : Vec Ideal S1024x4096 .bf16) (bias : Vec Ideal S1x4096 .f32)
    (p : Fin 256) (q : Fin 4096) :
    k0_pay1 (F := Ideal) x h A B bias (ix2 p q)
      = (∑ i : Fin 1024, x (ix2 p i) * A (ix2 i q) + ∑ i : Fin 1024, h (ix2 p i) * B (ix2 i q)) + bias (ix2 (0 : Fin 1) q) := by
  unfold k0_pay1
  simp only [shapeCast_self]
  rw [addf_apply, addf_apply, product_apply, product_apply, broadcastTo_1b_ab_apply]
  rfl

end Cert.KernelIdeal.GatesBlock

end
-- ==== Proof.Staged.lean ====
/-
  What the region finds in the three arrays the host prepares before it: the weights laid side by side and the bias row.

  Before the region the host transposes each stacked weight array [4,1024,1024] (gate, unit, feature) to
  [1024,4,1024] (feature, gate, unit) and flattens the last two axes to [1024,4096], so that gate `g`'s unit `k` sits
  in column `1024·g + k`; the narrowing to a shorter float format is the identity over the extended reals. The bias
  [4,1024] is flattened to one row [1,4096] the same way. So

      staged weights [i, 1024·g + k] = W[g, k, i]        staged bias [0, 1024·g + k] = bi[g, k].
-/
import proofs.«136531_j66984309948631_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Staged

open Cert.KernelIdeal Cert.KernelIdeal.Gen Idealize.ShloMosaic Idealize.ShloMosaic.TcCoe Idealize.ShloMosaic.ValueIdx
open Idealize.SL.Sem Idealize.ShloMosaic.StableHlo

/-- Gate `g`'s unit `k` among the 4096 side-by-side columns. -/
abbrev col (g : Fin 4) (k : Fin 1024) : Fin 4096 := ⟨1024 * g.val + k.val, by have := g.isLt; have := k.isLt; omega⟩

/-- A stacked weight array transposed to (feature, gate, unit), flattened to [1024,4096] and narrowed: entry
    (i, column of (g, k)) is the weight of gate `g`, unit `k`, feature `i`. -/
theorem sideBySide_apply (W : FVec Ideal S4x1024x1024 .f32) (i : Fin 1024) (g : Fin 4) (k : Fin 1024) :
    (truncf .bf16 (shapeCast S1024x4096 (transpose S1024x4x1024 [2, 0, 1] W transposes_S4x1024x1024_S1024x4x1024_2_0_1)
        shapeCasts_S1024x4x1024_S1024x4096) bitsLt_bf16_f32 : FVec Ideal S1024x4096 .bf16) (ix2 i (col g k))
      = W (ix3 g k i) := by
  show shapeCast S1024x4096 (transpose S1024x4x1024 [2, 0, 1] W transposes_S4x1024x1024_S1024x4x1024_2_0_1)
      shapeCasts_S1024x4x1024_S1024x4096 (ix2 i (col g k)) = _
  rw [shapeCast_apply _ shapeCasts_S1024x4x1024_S1024x4096 (ix2 i (col g k)) (ix3 i g k) (by
    rw [Shape.rowMajor_val_three, Shape.rowMajor_val_two]
    show (i.val * 4 + g.val) * 1024 + k.val = i.val * 4096 + (1024 * g.val + k.val)
    omega)]
  exact transpose_apply [2, 0, 1] W transposes_S4x1024x1024_S1024x4x1024_2_0_1 (ix3 i g k) (ix3 g k i) (fun b => match b with
    | ⟨0, _⟩ => rfl
    | ⟨1, _⟩ => rfl
    | ⟨2, _⟩ => rfl)

/-- The bias flattened to one row: entry (0, column of (g, k)) is gate `g`'s bias for unit `k`. -/
theorem biasRow_apply (bi : FVec Ideal S4x1024 .f32) (g : Fin 4) (k : Fin 1024) :
    shapeCast S1x4096 bi shapeCasts_S4x1024_S1x4096 (ix2 (0 : Fin 1) (col g k)) = bi (ix2 g k) :=
  shapeCast_apply bi shapeCasts_S4x1024_S1x4096 (ix2 (0 : Fin 1) (col g k)) (ix2 g k) (by
    rw [Shape.rowMajor_val_two, Shape.rowMajor_val_two]
    show g.val * 1024 + k.val = 0 * 4096 + (1024 * g.val + k.val)
    omega)

variable (m : (ℓ : Loc nD τ sig) → Buf (Elt Ideal) ℓ)

/-- The input weights as the region finds them. -/
theorem inputWeights_eq (c : Dev nD) : @Eq (FVec Ideal S1024x4096 .bf16) (V m c main_v2)
    (truncf (F := Ideal) .bf16 (shapeCast S1024x4096 (transpose S1024x4x1024 [2, 0, 1] (m ((c : Thread nD τ).loc main_arg3)) transposes_S4x1024x1024_S1024x4x1024_2_0_1)
        shapeCasts_S1024x4x1024_S1024x4096) bitsLt_bf16_f32) := by
  dsimp only [Gen.V, Gen.hostOps0]; after_results; rfl

/-- The recurrent weights as the region finds them. -/
theorem hiddenWeights_eq (c : Dev nD) : @Eq (FVec Ideal S1024x4096 .bf16) (V m c main_v5)
    (truncf (F := Ideal) .bf16 (shapeCast S1024x4096 (transpose S1024x4x1024 [2, 0, 1] (m ((c : Thread nD τ).loc main_arg5)) transposes_S4x1024x1024_S1024x4x1024_2_0_1)
        shapeCasts_S1024x4x1024_S1024x4096) bitsLt_bf16_f32) := by
  dsimp only [Gen.V, Gen.hostOps0]; after_results; rfl

/-- The bias row as the region finds it. -/
theorem biasRow_eq (c : Dev nD) : (V m c main_v6 : S1x4096.Idx → EReal)
    = shapeCast S1x4096 (m ((c : Thread nD τ).loc main_arg4)) shapeCasts_S4x1024_S1x4096 := by
  dsimp only [Gen.V, Gen.hostOps0]; after_results; rfl

end Cert.KernelIdeal.Staged

end
-- ==== Proof.BlockValue.lean ====
/-
  One grid point's two output blocks are blocks of the specification.

  Stated over plain arrays so that it can be used at every grid point: suppose the three [256,1024] blocks hold rows
  `row p` of the inputs `X`, the hidden states `H` and the cell states `C`; the two [1024,4096] matrices hold the
  stacked weights side by side (column `1024·g + k` of row `i` is `W[g,k,i]`); and the [1,4096] row holds the biases
  the same way. Then column `1024·g + k` of the body's pre-activation block is `gate g (row p) k`; the four gates of
  unit `k` are read at columns `k`, `k + 1024`, `k + 2048`, `k + 3072`, that is at gates 0, 1, 2, 3; and the two
  stored blocks are, entry by entry, the specification's new cell state and new hidden state at row `row p`.
-/
import proofs.«136531_j66984309948631_1_alg».proof.Proof.Gen.KernelIdeal.Value
import proofs.«136531_j66984309948631_1_alg».proof.Proof.CellSpec
import proofs.«136531_j66984309948631_1_alg».proof.Proof.GatesBlock
import proofs.«136531_j66984309948631_1_alg».proof.Proof.Staged

noncomputable section

open scoped BigOperators

namespace Cert.KernelIdeal.BlockValue

open Cert.KernelIdeal Cert.KernelIdeal.Gen Cert.CellSpec Cert.KernelIdeal.Staged
open Idealize.ShloMosaic Idealize.ShloMosaic.ValueIdx

variable (x0 h0 c0 : Vec Ideal S256x1024 .f32) (A B : Vec Ideal S1024x4096 .bf16) (bias : Vec Ideal S1x4096 .f32)
variable (X H C : Rows) (Wi Wh : Weights) (bi : Biases) (row : Fin 256 → Fin 16384)

/-- Column `1024·g + k` of the pre-activation block, at block row `p`, is gate `g`'s pre-activation for array row
    `row p` and unit `k`. -/
theorem pre_gate (hx : ∀ p i, x0 (ix2 p i) = X (ix2 (row p) i)) (hh : ∀ p i, h0 (ix2 p i) = H (ix2 (row p) i))
    (hA : ∀ i g k, A (ix2 i (col g k)) = Wi (ix3 g k i)) (hB : ∀ i g k, B (ix2 i (col g k)) = Wh (ix3 g k i))
    (hb : ∀ g k, bias (ix2 (0 : Fin 1) (col g k)) = bi (ix2 g k)) (g : Fin 4) (p : Fin 256) (k : Fin 1024) :
    k0_pay1 (F := Ideal) x0 h0 A B bias (ix2 p (col g k)) = gate X H Wi Wh bi g (row p) k := by
  rw [GatesBlock.pre_apply]
  unfold gate
  simp only [hx, hh, hA, hB, hb]

/-- The stored cell-state block at (p, k) is the specification's new cell state at (row p, k). -/
theorem cellBlock_apply (hx : ∀ p i, x0 (ix2 p i) = X (ix2 (row p) i)) (hh : ∀ p i, h0 (ix2 p i) = H (ix2 (row p) i))
    (hc : ∀ p k, c0 (ix2 p k) = C (ix2 (row p) k))
    (hA : ∀ i g k, A (ix2 i (col g k)) = Wi (ix3 g k i)) (hB : ∀ i g k, B (ix2 i (col g k)) = Wh (ix3 g k i))
    (hb : ∀ g k, bias (ix2 (0 : Fin 1) (col g k)) = bi (ix2 g k)) (p : Fin 256) (k : Fin 1024) :
    Value.E7 (F := Ideal) x0 h0 A B bias c0 (ix2 p k) = newCell X H C Wi Wh bi (ix2 (row p) k) := by
  have i0 : Value.ix7_0 (ix2 p k) = ix2 p (col 1 k) := funext fun a => Fin.ext (by
    match a with | ⟨0, _⟩ => rfl | ⟨1, _⟩ => show k.val + 1024 = 1024 * 1 + k.val; omega)
  have i1 : Value.ix7_1 (ix2 p k) = ix2 p k := funext fun a => Fin.ext (by
    match a with | ⟨0, _⟩ => rfl | ⟨1, _⟩ => rfl)
  have i2 : Value.ix7_2 (ix2 p k) = ix2 p (col 0 k) := funext fun a => Fin.ext (by
    match a with | ⟨0, _⟩ => rfl | ⟨1, _⟩ => show k.val = 1024 * 0 + k.val; omega)
  have i3 : Value.ix7_3 (ix2 p k) = ix2 p (col 2 k) := funext fun a => Fin.ext (by
    match a with | ⟨0, _⟩ => rfl | ⟨1, _⟩ => show k.val + 2048 = 1024 * 2 + k.val; omega)
  show FloatOps.addf (FloatOps.mulf (FloatOps.logistic (k0_pay1 x0 h0 A B bias (Value.ix7_0 (ix2 p k)))) (c0 (Value.ix7_1 (ix2 p k))))
      (FloatOps.mulf (FloatOps.logistic (k0_pay1 x0 h0 A B bias (Value.ix7_2 (ix2 p k)))) (FloatOps.tanh (k0_pay1 x0 h0 A B bias (Value.ix7_3 (ix2 p k))))) = _
  rw [i0, i1, i2, i3, pre_gate x0 h0 A B bias X H Wi Wh bi row hx hh hA hB hb, pre_gate x0 h0 A B bias X H Wi Wh bi row hx hh hA hB hb,
    pre_gate x0 h0 A B bias X H Wi Wh bi row hx hh hA hB hb, hc]
  rfl

/-- The stored hidden-state block at (p, k) is the specification's new hidden state at (row p, k). -/
theorem hiddenBlock_apply (hx : ∀ p i, x0 (ix2 p i) = X (ix2 (row p) i)) (hh : ∀ p i, h0 (ix2 p i) = H (ix2 (row p) i))
    (hc : ∀ p k, c0 (ix2 p k) = C (ix2 (row p) k))
    (hA : ∀ i g k, A (ix2 i (col g k)) = Wi (ix3 g k i)) (hB : ∀ i g k, B (ix2 i (col g k)) = Wh (ix3 g k i))
    (hb : ∀ g k, bias (ix2 (0 : Fin 1) (col g k)) = bi (ix2 g k)) (p : Fin 256) (k : Fin 1024) :
    Value.E6 (F := Ideal) x0 h0 A B bias c0 (ix2 p k) = newHidden X H C Wi Wh bi (ix2 (row p) k) := by
  have i0 : Value.ix6_0 (ix2 p k) = ix2 p (col 3 k) := funext fun a => Fin.ext (by
    match a with | ⟨0, _⟩ => rfl | ⟨1, _⟩ => show k.val + 3072 = 1024 * 3 + k.val; omega)
  have i1 : Value.ix6_1 (ix2 p k) = ix2 p (col 1 k) := funext fun a => Fin.ext (by
    match a with | ⟨0, _⟩ => rfl | ⟨1, _⟩ => show k.val + 1024 = 1024 * 1 + k.val; omega)
  have i2 : Value.ix6_2 (ix2 p k) = ix2 p k := funext fun a => Fin.ext (by
    match a with | ⟨0, _⟩ => rfl | ⟨1, _⟩ => rfl)
  have i3 : Value.ix6_3 (ix2 p k) = ix2 p (col 0 k) := funext fun a => Fin.ext (by
    match a with | ⟨0, _⟩ => rfl | ⟨1, _⟩ => show k.val = 1024 * 0 + k.val; omega)
  have i4 : Value.ix6_4 (ix2 p k) = ix2 p (col 2 k) := funext fun a => Fin.ext (by
    match a with | ⟨0, _⟩ => rfl | ⟨1, _⟩ => show k.val + 2048 = 1024 * 2 + k.val; omega)
  show FloatOps.mulf (FloatOps.logistic (k0_pay1 x0 h0 A B bias (Value.ix6_0 (ix2 p k))))
      (FloatOps.tanh (FloatOps.addf (FloatOps.mulf (FloatOps.logistic (k0_pay1 x0 h0 A B bias (Value.ix6_1 (ix2 p k)))) (c0 (Value.ix6_2 (ix2 p k))))
        (FloatOps.mulf (FloatOps.logistic (k0_pay1 x0 h0 A B bias (Value.ix6_3 (ix2 p k)))) (FloatOps.tanh (k0_pay1 x0 h0 A B bias (Value.ix6_4 (ix2 p k))))))) = _
  rw [i0, i1, i2, i3, i4, pre_gate x0 h0 A B bias X H Wi Wh bi row hx hh hA hB hb, pre_gate x0 h0 A B bias X H Wi Wh bi row hx hh hA hB hb,
    pre_gate x0 h0 A B bias X H Wi Wh bi row hx hh hA hB hb, pre_gate x0 h0 A B bias X H Wi Wh bi row hx hh hA hB hb, hc]
  rfl

end Cert.KernelIdeal.BlockValue

end
-- ==== Proof.Arrays.lean ====
/-
  The kernel's two result arrays are the specification of its argument arrays.

  The grid has 64 points; point `t` works on rows `256·t … 256·t + 255`. Its blocks of the inputs, hidden states and
  cell states are those rows of the argument arrays (the block index on the row axis is `t`, on the column axis 0), and
  its blocks of the two weight matrices and of the bias row are those arrays whole (block index 0 on both axes), which
  the host laid out side by side from the stacked arguments. So what point `t` writes back to each result is block `t`
  of the specification; the 64 blocks cover every row, hence each result array ends equal to the specification.
-/
import proofs.«136531_j66984309948631_1_alg».proof.Proof.Gen.KernelIdeal.Value
import proofs.«136531_j66984309948631_1_alg».proof.Proof.BlockValue
import Idealize.ShloMosaic.Lib.Pipeline.Value

noncomputable section

namespace Cert.KernelIdeal.RefValue

open Cert.KernelIdeal Cert.KernelIdeal.Gen Cert.CellSpec Cert.KernelIdeal.Staged
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- The specification's new hidden state of the argument arrays of core `c`. -/
abbrev finalHidden (c : Dev nD) : Rows :=
  newHidden (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg4))
/-- The specification's new cell state of the argument arrays of core `c`. -/
abbrev finalCell (c : Dev nD) : Rows :=
  newCell (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg4))

/-- The block indices at point `t`: the row blocks move with `t`, the weights and the bias stay at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 64 := lt_of_lt_of_eq t.isLt N_0

/-- Row `p` of point `t`'s blocks is row `256·t + p` of the arrays. -/
def rowAt (t : Fin cfg0.N) (p : Fin 256) : Fin 16384 :=
  ⟨256 * t.val + p.val, by have ht := point_lt t; have hp := p.isLt; omega⟩

/-! ## The blocks at a point -/

theorem xBlock_apply (c : Dev nD) (t : Fin cfg0.N) (p : Fin 256) (i : Fin 1024) :
    (iblk m c 0 t : Vec Ideal S256x1024 .f32) (ix2 p i) = m ((c : Thread nD τ).loc main_arg0) (ix2 (rowAt t p) i) := by
  obtain ⟨e0, e1, -⟩ := index_facts t
  have e : ((cfg0.win 0).blk t).view.emb (ix2 p i) = (ix2 (rowAt t p) i : S16384x1024.Idx) := by
    funext a; apply Fin.ext
    match a with
    | ⟨0, _⟩ => show win0_0.index t (0 : Fin 2) * 256 + 1 * p.val = 256 * t.val + p.val; omega
    | ⟨1, _⟩ => show win0_0.index t (1 : Fin 2) * 1024 + 1 * i.val = i.val; omega
  show V m c main_arg0 (((cfg0.win 0).blk t).view.emb (ix2 p i)) = _
  rw [e, V_main_arg0]

theorem hBlock_apply (c : Dev nD) (t : Fin cfg0.N) (p : Fin 256) (i : Fin 1024) :
    (iblk m c 1 t : Vec Ideal S256x1024 .f32) (ix2 p i) = m ((c : Thread nD τ).loc main_arg1) (ix2 (rowAt t p) i) := by
  obtain ⟨-, -, e0, e1, -⟩ := index_facts t
  have e : ((cfg0.win 1).blk t).view.emb (ix2 p i) = (ix2 (rowAt t p) i : S16384x1024.Idx) := by
    funext a; apply Fin.ext
    match a with
    | ⟨0, _⟩ => show win0_1.index t (0 : Fin 2) * 256 + 1 * p.val = 256 * t.val + p.val; omega
    | ⟨1, _⟩ => show win0_1.index t (1 : Fin 2) * 1024 + 1 * i.val = i.val; omega
  show V m c main_arg1 (((cfg0.win 1).blk t).view.emb (ix2 p i)) = _
  rw [e, V_main_arg1]

theorem cBlock_apply (c : Dev nD) (t : Fin cfg0.N) (p : Fin 256) (k : Fin 1024) :
    (iblk m c 2 t : Vec Ideal S256x1024 .f32) (ix2 p k) = m ((c : Thread nD τ).loc main_arg2) (ix2 (rowAt t p) k) := by
  obtain ⟨-, -, -, -, e0, e1, -⟩ := index_facts t
  have e : ((cfg0.win 2).blk t).view.emb (ix2 p k) = (ix2 (rowAt t p) k : S16384x1024.Idx) := by
    funext a; apply Fin.ext
    match a with
    | ⟨0, _⟩ => show win0_2.index t (0 : Fin 2) * 256 + 1 * p.val = 256 * t.val + p.val; omega
    | ⟨1, _⟩ => show win0_2.index t (1 : Fin 2) * 1024 + 1 * k.val = k.val; omega
  show V m c main_arg2 (((cfg0.win 2).blk t).view.emb (ix2 p k)) = _
  rw [e, V_main_arg2]

theorem inputWeightsBlock_apply (c : Dev nD) (t : Fin cfg0.N) (i : Fin 1024) (g : Fin 4) (k : Fin 1024) :
    (iblk m c 3 t : Vec Ideal S1024x4096 .bf16) (ix2 i (col g k)) = m ((c : Thread nD τ).loc main_arg3) (ix3 g k i) := by
  obtain ⟨-, -, -, -, -, -, e0, e1, -⟩ := index_facts t
  have e : ((cfg0.win 3).blk t).view.emb (ix2 i (col g k)) = (ix2 i (col g k) : S1024x4096.Idx) := by
    funext a; apply Fin.ext
    match a with
    | ⟨0, _⟩ => show win0_3.index t (0 : Fin 2) * 1024 + 1 * i.val = i.val; omega
    | ⟨1, _⟩ => show win0_3.index t (1 : Fin 2) * 4096 + 1 * (col g k).val = (col g k).val; omega
  show V m c main_v2 (((cfg0.win 3).blk t).view.emb (ix2 i (col g k))) = _
  rw [e]
  exact (congrFun (inputWeights_eq m c) (ix2 i (col g k))).trans (sideBySide_apply _ i g k)

theorem hiddenWeightsBlock_apply (c : Dev nD) (t : Fin cfg0.N) (i : Fin 1024) (g : Fin 4) (k : Fin 1024) :
    (iblk m c 4 t : Vec Ideal S1024x4096 .bf16) (ix2 i (col g k)) = m ((c : Thread nD τ).loc main_arg5) (ix3 g k i) := by
  obtain ⟨-, -, -, -, -, -, -, -, e0, e1, -⟩ := index_facts t
  have e : ((cfg0.win 4).blk t).view.emb (ix2 i (col g k)) = (ix2 i (col g k) : S1024x4096.Idx) := by
    funext a; apply Fin.ext
    match a with
    | ⟨0, _⟩ => show win0_4.index t (0 : Fin 2) * 1024 + 1 * i.val = i.val; omega
    | ⟨1, _⟩ => show win0_4.index t (1 : Fin 2) * 4096 + 1 * (col g k).val = (col g k).val; omega
  show V m c main_v5 (((cfg0.win 4).blk t).view.emb (ix2 i (col g k))) = _
  rw [e]
  exact (congrFun (hiddenWeights_eq m c) (ix2 i (col g k))).trans (sideBySide_apply _ i g k)

theorem biasBlock_apply (c : Dev nD) (t : Fin cfg0.N) (g : Fin 4) (k : Fin 1024) :
    (iblk m c 5 t : Vec Ideal S1x4096 .f32) (ix2 (0 : Fin 1) (col g k)) = m ((c : Thread nD τ).loc main_arg4) (ix2 g k) := by
  obtain ⟨-, -, -, -, -, -, -, -, -, -, e0, e1, -⟩ := index_facts t
  have e : ((cfg0.win 5).blk t).view.emb (ix2 (0 : Fin 1) (col g k)) = (ix2 (0 : Fin 1) (col g k) : S1x4096.Idx) := by
    funext a; apply Fin.ext
    match a with
    | ⟨0, _⟩ => show win0_5.index t (0 : Fin 2) * 1 + 1 * 0 = 0; omega
    | ⟨1, _⟩ => show win0_5.index t (1 : Fin 2) * 4096 + 1 * (col g k).val = (col g k).val; omega
  show V m c main_v6 (((cfg0.win 5).blk t).view.emb (ix2 (0 : Fin 1) (col g k))) = _
  rw [e]
  exact (congrFun (biasRow_eq m c) (ix2 (0 : Fin 1) (col g k))).trans (biasRow_apply _ g k)

/-! ## What a point writes back -/

/-- Point `t` writes block `t` of the new hidden state to the first result. -/
theorem flushedHidden_eq (c : Dev nD) (t : Fin cfg0.N) :
    (dats m 0 c).flushed 6 t = ((cfg0.win 6).blk t).view.read (Elt Ideal) (finalHidden m c) := by
  rw [Value.flushed6]
  unfold out0_6
  simp only [View.ld_unit_zero (S := S256x1024) zeros, View.ld_unit_zero (S := S1024x4096) zeros, View.ld_unit_zero (S := S1x4096) zeros]
  obtain ⟨-, -, -, -, -, -, -, -, -, -, -, -, e0, e1, -⟩ := index_facts t
  funext j
  obtain ⟨p, k, rfl⟩ : ∃ (p : Fin 256) (k : Fin 1024), j = ix2 p k := ⟨j 0, j 1, eq_ix2 j⟩
  have e : ((cfg0.win 6).blk t).view.emb (ix2 p k) = (ix2 (rowAt t p) k : S16384x1024.Idx) := by
    funext a; apply Fin.ext
    match a with
    | ⟨0, _⟩ => show win0_6.index t (0 : Fin 2) * 256 + 1 * p.val = 256 * t.val + p.val; omega
    | ⟨1, _⟩ => show win0_6.index t (1 : Fin 2) * 1024 + 1 * k.val = k.val; omega
  show (View.canon [(⟨r0_0, k0_pay3 (iblk m c 0 t) (iblk m c 1 t) (iblk m c 3 t) (iblk m c 4 t) (iblk m c 5 t) (iblk m c 2 t)⟩ : View.Piece (Elt Ideal) S256x1024 .f32)] : Vec Ideal S256x1024 .f32) (ix2 p k)
    = finalHidden m c (((cfg0.win 6).blk t).view.emb (ix2 p k))
  rw [e]
  refine (Value.canon6_eq (F := Ideal) (iblk m c 0 t) (iblk m c 1 t) (iblk m c 3 t) (iblk m c 4 t) (iblk m c 5 t) (iblk m c 2 t) (ix2 p k)).trans ?_
  exact BlockValue.hiddenBlock_apply (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg4)) (rowAt t)
    (xBlock_apply m c t) (hBlock_apply m c t) (cBlock_apply m c t) (inputWeightsBlock_apply m c t) (hiddenWeightsBlock_apply m c t)
    (biasBlock_apply m c t) p k

/-- Point `t` writes block `t` of the new cell state to the second result. -/
theorem flushedCell_eq (c : Dev nD) (t : Fin cfg0.N) :
    (dats m 0 c).flushed 7 t = ((cfg0.win 7).blk t).view.read (Elt Ideal) (finalCell m c) := by
  rw [Value.flushed7]
  unfold out0_7
  simp only [View.ld_unit_zero (S := S256x1024) zeros, View.ld_unit_zero (S := S1024x4096) zeros, View.ld_unit_zero (S := S1x4096) zeros]
  obtain ⟨-, -, -, -, -, -, -, -, -, -, -, -, -, -, e0, e1⟩ := index_facts t
  funext j
  obtain ⟨p, k, rfl⟩ : ∃ (p : Fin 256) (k : Fin 1024), j = ix2 p k := ⟨j 0, j 1, eq_ix2 j⟩
  have e : ((cfg0.win 7).blk t).view.emb (ix2 p k) = (ix2 (rowAt t p) k : S16384x1024.Idx) := by
    funext a; apply Fin.ext
    match a with
    | ⟨0, _⟩ => show win0_7.index t (0 : Fin 2) * 256 + 1 * p.val = 256 * t.val + p.val; omega
    | ⟨1, _⟩ => show win0_7.index t (1 : Fin 2) * 1024 + 1 * k.val = k.val; omega
  show (View.canon [(⟨r0_0, k0_pay2 (iblk m c 0 t) (iblk m c 1 t) (iblk m c 3 t) (iblk m c 4 t) (iblk m c 5 t) (iblk m c 2 t)⟩ : View.Piece (Elt Ideal) S256x1024 .f32)] : Vec Ideal S256x1024 .f32) (ix2 p k)
    = finalCell m c (((cfg0.win 7).blk t).view.emb (ix2 p k))
  rw [e]
  refine (Value.canon7_eq (F := Ideal) (iblk m c 0 t) (iblk m c 1 t) (iblk m c 3 t) (iblk m c 4 t) (iblk m c 5 t) (iblk m c 2 t) (ix2 p k)).trans ?_
  exact BlockValue.cellBlock_apply (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg4)) (rowAt t)
    (xBlock_apply m c t) (hBlock_apply m c t) (cBlock_apply m c t) (inputWeightsBlock_apply m c t) (hiddenWeightsBlock_apply m c t)
    (biasBlock_apply m c t) p k

/-! ## The blocks cover the arrays -/

/-- An index is in point `t`'s block of the first result iff each coordinate is in the block's range. -/
theorem mem_hiddenBlock (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v7_0).slice (win0_6.rect t)).set ↔ _
  rw [View.set_slice_whole, Rect.mem_set_unit]
  exact Iff.rfl

theorem mem_cellBlock (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v7_1).slice (win0_7.rect t)).set ↔ _
  rw [View.set_slice_whole, Rect.mem_set_unit]
  exact Iff.rfl

/-- The point whose block holds row `r`: `r / 256`. -/
def pointOf (i : S16384x1024.Idx) : Fin cfg0.N :=
  ⟨(i 0).val / 256, by
    have h0 : (i 0).val < 16384 := (i 0).isLt
    show (i 0).val / 256 < grid0.N
    rw [N_0]; omega⟩

theorem hidden_covered (i : S16384x1024.Idx) :
    ∃ t : Fin cfg0.N, (cfg0.win 6).flush t = true ∧ i ∈ ((cfg0.win 6).blk t).view.set := by
  have h0 : (i 0).val < 16384 := (i 0).isLt
  have h1 : (i 1).val < 1024 := (i 1).isLt
  obtain ⟨-, -, -, -, -, -, -, -, -, -, -, -, e0, e1, -⟩ := index_facts (pointOf i)
  have ht : (pointOf i).val = (i 0).val / 256 := rfl
  refine ⟨pointOf i, flush0_6 _, ?_⟩
  rw [mem_hiddenBlock]
  intro a
  match a with
  | ⟨0, _⟩ => show win0_6.index (pointOf i) (0 : Fin 2) * 256 ≤ (i 0).val ∧ (i 0).val < win0_6.index (pointOf i) (0 : Fin 2) * 256 + 256; omega
  | ⟨1, _⟩ => show win0_6.index (pointOf i) (1 : Fin 2) * 1024 ≤ (i 1).val ∧ (i 1).val < win0_6.index (pointOf i) (1 : Fin 2) * 1024 + 1024; omega

theorem cell_covered (i : S16384x1024.Idx) :
    ∃ t : Fin cfg0.N, (cfg0.win 7).flush t = true ∧ i ∈ ((cfg0.win 7).blk t).view.set := by
  have h0 : (i 0).val < 16384 := (i 0).isLt
  have h1 : (i 1).val < 1024 := (i 1).isLt
  obtain ⟨-, -, -, -, -, -, -, -, -, -, -, -, -, -, e0, e1⟩ := index_facts (pointOf i)
  have ht : (pointOf i).val = (i 0).val / 256 := rfl
  refine ⟨pointOf i, flush0_7 _, ?_⟩
  rw [mem_cellBlock]
  intro a
  match a with
  | ⟨0, _⟩ => show win0_7.index (pointOf i) (0 : Fin 2) * 256 ≤ (i 0).val ∧ (i 0).val < win0_7.index (pointOf i) (0 : Fin 2) * 256 + 256; omega
  | ⟨1, _⟩ => show win0_7.index (pointOf i) (1 : Fin 2) * 1024 ≤ (i 1).val ∧ (i 1).val < win0_7.index (pointOf i) (1 : Fin 2) * 1024 + 1024; omega

/-! ## The arrays after the run -/

theorem hiddenArray_eq (c : Dev nD) : (dats m 0 c).arrAt 6 cfg0.N = finalHidden m c :=
  (dats m 0 c).arrAt_eq_of_cover 6 (finalHidden m c) (fun t _ => flushedHidden_eq m c t) hidden_covered

theorem cellArray_eq (c : Dev nD) : (dats m 0 c).arrAt 7 cfg0.N = finalCell m c :=
  (dats m 0 c).arrAt_eq_of_cover 7 (finalCell m c) (fun t _ => flushedCell_eq m c t) cell_covered

/-- The kernel's run: it terminates with the first result at the new hidden state and the second at the new cell
    state of its arguments, which it leaves unchanged. -/
theorem run : θ_run defs (onTc (τ := τ) (main (F := Ideal))) ⟨m, fun _ => 0, ρ⟩ fun r => ∀ c : Dev nD,
      r.2.mem ((c : Thread nD τ).loc main_v7_0) = finalHidden m c
      ∧ r.2.mem ((c : Thread nD τ).loc main_v7_1) = finalCell m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (hiddenArray_eq m c), (h c).2.1.trans (cellArray_eq m c), (h c).2.2⟩)
    (Value.run_blocks m ρ)

end Cert.KernelIdeal.RefValue

end
-- ==== Proof.RefIsSpec.lean ====
/-
  The reference computes the specification.

  The reference forms all four gates' pre-activations at once, as a stacked array [4,16384,1024]: two contractions of
  the stacked weights with the inputs and with the hidden states (each transposed to gate, row, unit), added, plus
  the bias repeated over the rows. Entry (g, b, k) is `gate g b k` — its products have the weight on the left, which
  commutativity of the product puts right. Gate `g`'s rows are slice `g` of the stack, flattened to [16384,1024]. The
  reference spells the logistic function out as `1 / (1 + exp (−u))` with the float word of one, which is the real
  number one, and that expression is the logistic function's definition on the extended reals. The remaining operations
  are the specification's, entry by entry.
-/
import proofs.«136531_j66984309948631_1_alg».proof.Proof.Gen.ReferenceIdeal.Read
import proofs.«136531_j66984309948631_1_alg».proof.Proof.CellSpec
import Idealize.ShloMosaic.Lib.IdealHost

noncomputable section

open scoped BigOperators

namespace Cert.ReferenceIdeal.RefValue

open Cert.ReferenceIdeal Cert.ReferenceIdeal.Gen Cert.ReferenceIdeal.Read Cert.CellSpec
open Idealize.ShloMosaic Idealize.ShloMosaic.ValueIdx

variable (x h c : Rows) (Wi Wh : Weights) (bi : Biases)

/-- The stacked pre-activations at (g, b, k). -/
theorem stack_apply (g : Fin 4) (b : Fin 16384) (k : Fin 1024) :
    val_main_v7 (F := Ideal) x h Wi bi Wh (ix3 g b k) = gate x h Wi Wh bi g b k := by
  rw [val_main_v7_apply, val_main_v4_apply, val_main_v1_apply, val_main_v3_apply, val_main_v0_apply, val_main_v2_apply,
    val_main_v6_apply, val_main_v5_apply]
  have eWi : ∀ i : Fin 1024, lidx_main_v0 (idx_main_v1 (ix3 g b k)) i = ix3 g k i := fun i => funext fun a => Fin.ext (by
    match a with | ⟨0, _⟩ => rfl | ⟨1, _⟩ => rfl | ⟨2, _⟩ => rfl)
  have ex : ∀ i : Fin 1024, ridx_main_v0 (idx_main_v1 (ix3 g b k)) i = ix2 b i := fun i => funext fun a => Fin.ext (by
    match a with | ⟨0, _⟩ => rfl | ⟨1, _⟩ => rfl)
  have eWh : ∀ i : Fin 1024, lidx_main_v2 (idx_main_v3 (ix3 g b k)) i = ix3 g k i := fun i => funext fun a => Fin.ext (by
    match a with | ⟨0, _⟩ => rfl | ⟨1, _⟩ => rfl | ⟨2, _⟩ => rfl)
  have eh : ∀ i : Fin 1024, ridx_main_v2 (idx_main_v3 (ix3 g b k)) i = ix2 b i := fun i => funext fun a => Fin.ext (by
    match a with | ⟨0, _⟩ => rfl | ⟨1, _⟩ => rfl)
  have ebi : idx_main_v5 (idx_main_v6 (ix3 g b k)) = ix2 g k := funext fun a => Fin.ext (by
    match a with | ⟨0, _⟩ => rfl | ⟨1, _⟩ => rfl)
  simp only [eWi, ex, eWh, eh, ebi]
  have s1 : ∑ i : Fin 1024, Wi (ix3 g k i) * x (ix2 b i) = ∑ i : Fin 1024, x (ix2 b i) * Wi (ix3 g k i) :=
    Finset.sum_congr rfl fun i _ => mul_comm _ _
  have s2 : ∑ i : Fin 1024, Wh (ix3 g k i) * h (ix2 b i) = ∑ i : Fin 1024, h (ix2 b i) * Wh (ix3 g k i) :=
    Finset.sum_congr rfl fun i _ => mul_comm _ _
  show (∑ i : Fin 1024, Wi (ix3 g k i) * x (ix2 b i) + ∑ i : Fin 1024, Wh (ix3 g k i) * h (ix2 b i)) + bi (ix2 g k) = _
  rw [s1, s2]
  rfl

/-- Row-major position `1024·b + k` of a [16384,1024] array splits back into row `b` and column `k`. -/
theorem split_row (i : S16384x1024.Idx) : ((i 0).val * 1024 + (i 1).val) / 1024 % 16384 = (i 0).val := by
  have h0 : (i 0).val < 16384 := (i 0).isLt
  have h1 : (i 1).val < 1024 := (i 1).isLt
  omega
theorem split_col (i : S16384x1024.Idx) : ((i 0).val * 1024 + (i 1).val) % 1024 = (i 1).val := by
  have h0 : (i 0).val < 16384 := (i 0).isLt
  have h1 : (i 1).val < 1024 := (i 1).isLt
  omega

/-- The input gate's pre-activations: slice 0 of the stack. -/
theorem pre0_apply (i : S16384x1024.Idx) : val_main_v9 (F := Ideal) x h Wi bi Wh i = gate x h Wi Wh bi 0 (i 0) (i 1) := by
  rw [val_main_v9_apply, val_main_v8_apply]
  have e : idx_main_v8 (idx_main_v9 i) = ix3 (0 : Fin 4) (i 0) (i 1) := funext fun a => Fin.ext (by
    match a with | ⟨0, _⟩ => rfl | ⟨1, _⟩ => exact split_row i | ⟨2, _⟩ => exact split_col i)
  rw [e]
  exact stack_apply x h Wi Wh bi 0 (i 0) (i 1)
/-- The forget gate's: slice 1. -/
theorem pre1_apply (i : S16384x1024.Idx) : val_main_v17 (F := Ideal) x h Wi bi Wh i = gate x h Wi Wh bi 1 (i 0) (i 1) := by
  rw [val_main_v17_apply, val_main_v16_apply]
  have e : idx_main_v16 (idx_main_v17 i) = ix3 (1 : Fin 4) (i 0) (i 1) := funext fun a => Fin.ext (by
    match a with | ⟨0, _⟩ => rfl | ⟨1, _⟩ => exact split_row i | ⟨2, _⟩ => exact split_col i)
  rw [e]
  exact stack_apply x h Wi Wh bi 1 (i 0) (i 1)
/-- The candidate's: slice 2. -/
theorem pre2_apply (i : S16384x1024.Idx) : val_main_v25 (F := Ideal) x h Wi bi Wh i = gate x h Wi Wh bi 2 (i 0) (i 1) := by
  rw [val_main_v25_apply, val_main_v24_apply]
  have e : idx_main_v24 (idx_main_v25 i) = ix3 (2 : Fin 4) (i 0) (i 1) := funext fun a => Fin.ext (by
    match a with | ⟨0, _⟩ => rfl | ⟨1, _⟩ => exact split_row i | ⟨2, _⟩ => exact split_col i)
  rw [e]
  exact stack_apply x h Wi Wh bi 2 (i 0) (i 1)
/-- The output gate's: slice 3. -/
theorem pre3_apply (i : S16384x1024.Idx) : val_main_v28 (F := Ideal) x h Wi bi Wh i = gate x h Wi Wh bi 3 (i 0) (i 1) := by
  rw [val_main_v28_apply, val_main_v27_apply]
  have e : idx_main_v27 (idx_main_v28 i) = ix3 (3 : Fin 4) (i 0) (i 1) := funext fun a => Fin.ext (by
    match a with | ⟨0, _⟩ => rfl | ⟨1, _⟩ => exact split_row i | ⟨2, _⟩ => exact split_col i)
  rw [e]
  exact stack_apply x h Wi Wh bi 3 (i 0) (i 1)

/-- `1 / (1 + exp (−u))` in the host's operations, with the float word of one, is the logistic function. -/
theorem spelled_logistic (u : EReal) :
    FloatOps.hostDivf (F := Ideal) (φ := .f32) (FloatOps.ofBits .f32 0x3F800000#32)
      (FloatOps.addf (FloatOps.ofBits .f32 0x3F800000#32) (FloatOps.hostUnary .exp (FloatOps.hostNegf u))) = Ideal.logistic u := by
  show Ideal.div (Ideal.ofBits .f32 0x3F800000#32) (Ideal.ofBits .f32 0x3F800000#32 + Ideal.exp (-u)) = Ideal.logistic u
  rw [Ideal.ofBits_one_f32]
  rfl

/-- The input gate. -/
theorem inputGate_apply (i : S16384x1024.Idx) :
    val_main_v15 (F := Ideal) x h Wi bi Wh i = Ideal.logistic (gate x h Wi Wh bi 0 (i 0) (i 1)) := by
  rw [val_main_v15_apply, val_main_v14_apply, val_main_cst_0_apply, val_main_v13_apply, val_main_v12_apply, val_main_cst_apply,
    val_main_v11_apply, val_main_v10_apply, pre0_apply]
  exact spelled_logistic _
/-- The forget gate. -/
theorem forgetGate_apply (i : S16384x1024.Idx) :
    val_main_v23 (F := Ideal) x h Wi bi Wh i = Ideal.logistic (gate x h Wi Wh bi 1 (i 0) (i 1)) := by
  rw [val_main_v23_apply, val_main_v22_apply, val_main_cst_2_apply, val_main_v21_apply, val_main_v20_apply, val_main_cst_1_apply,
    val_main_v19_apply, val_main_v18_apply, pre1_apply]
  exact spelled_logistic _
/-- The candidate. -/
theorem candidate_apply (i : S16384x1024.Idx) :
    val_main_v26 (F := Ideal) x h Wi bi Wh i = Ideal.tanh (gate x h Wi Wh bi 2 (i 0) (i 1)) := by
  rw [val_main_v26_apply, pre2_apply]
  rfl
/-- The output gate. -/
theorem outputGate_apply (i : S16384x1024.Idx) :
    val_main_v34 (F := Ideal) x h Wi bi Wh i = Ideal.logistic (gate x h Wi Wh bi 3 (i 0) (i 1)) := by
  rw [val_main_v34_apply, val_main_v33_apply, val_main_cst_4_apply, val_main_v32_apply, val_main_v31_apply, val_main_cst_3_apply,
    val_main_v30_apply, val_main_v29_apply, pre3_apply]
  exact spelled_logistic _

/-- The reference's new cell state is the specification's. -/
theorem cell_eq : val_main_v37 (F := Ideal) x h c Wi bi Wh = newCell x h c Wi Wh bi := by
  funext i
  rw [val_main_v37_apply, val_main_v35_apply, val_main_v36_apply, forgetGate_apply, inputGate_apply, candidate_apply]
  rfl

/-- The reference's new hidden state is the specification's. -/
theorem hidden_eq : val_main_v39 (F := Ideal) x h c Wi bi Wh = newHidden x h c Wi Wh bi := by
  funext i
  rw [val_main_v39_apply, val_main_v38_apply, outputGate_apply, cell_eq]
  rfl

end Cert.ReferenceIdeal.RefValue

end
-- ==== Proof.lean ====
/-
  One step of an LSTM cell, computed two ways, gives the same new hidden and cell states over the extended reals.

  The kernel works on the batch 256 rows at a time. The host first lays the four gates' weight matrices side by side
  (feature × 4096 columns, column `1024·g + k` for gate `g`, unit `k`) and the biases as one row; each grid point
  multiplies its 256 rows of inputs and of hidden states by those two matrices, adds the two products and then the
  bias row, reads the four gates off the four column ranges, and applies the logistic function, `tanh` and the gating
  arithmetic. The reference contracts the stacked weights with the whole batch, adds the products and the bias in the
  same order, slices the four gates off the stack, and spells the logistic function as `1 / (1 + exp (−u))`.

  Both are shown equal to one specification (Proof/CellSpec.lean): the reference in Proof/RefIsSpec.lean (its products
  have the factors the other way round: commutativity; its spelled-out logistic is the logistic function's definition),
  the kernel in Proof/GatesBlock.lean (a block's pre-activations as sums), Proof/Staged.lean (the side-by-side layout),
  Proof/BlockValue.lean (a point's two blocks are blocks of the specification) and Proof/Arrays.lean (the 64 blocks
  cover the arrays). No law used needs finiteness: sums are only re-indexed, products only commuted. Narrowing a
  float to a shorter format is the identity over the extended reals, so the kernel's narrowed operands change nothing.

  The frames are the generated ones (the reference's is its run with the results dropped), and no operation was
  rewritten in idealizing the kernel, so that conjunct is trivial.
-/
import proofs.«136531_j66984309948631_1_alg».proof.Defs
import proofs.«136531_j66984309948631_1_alg».proof.Proof.Gen.Kernel
import proofs.«136531_j66984309948631_1_alg».proof.Proof.Gen.Kernel.Frame
import proofs.«136531_j66984309948631_1_alg».proof.Proof.Gen.KernelIdeal
import proofs.«136531_j66984309948631_1_alg».proof.Proof.Gen.KernelIdeal.Frame
import proofs.«136531_j66984309948631_1_alg».proof.Proof.Gen.ReferenceIdeal
import proofs.«136531_j66984309948631_1_alg».proof.Proof.Gen.Pre_finite_inputs
import proofs.«136531_j66984309948631_1_alg».proof.Proof.Gen.KernelIdeal.Value
import proofs.«136531_j66984309948631_1_alg».proof.Proof.Gen.ReferenceIdeal.Run
import proofs.«136531_j66984309948631_1_alg».proof.Proof.Gen.ReferenceIdeal.Read
import proofs.«136531_j66984309948631_1_alg».proof.Proof.Arrays
import proofs.«136531_j66984309948631_1_alg».proof.Proof.RefIsSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- Idealizing the kernel rewrote no operation. -/
theorem preserves : Cert.preserves_Kernel_KernelIdeal := trivial

/-- Both programs end with the new hidden state (returned twice) and the new cell state of the specification, of
    arguments that agree. -/
theorem algebraic : Cert.algebraic_KernelIdeal_ReferenceIdeal := by
  intro m ρ m' ρ' _ hagree
  refine ⟨fun c => Cert.KernelIdeal.RefValue.finalHidden m c, fun c => Cert.KernelIdeal.RefValue.finalHidden m c,
    fun c => Cert.KernelIdeal.RefValue.finalCell m c, ?_, ?_⟩
  · exact (θ_run Cert.KernelIdeal.defs _ _).mono (fun r h c => ⟨(h c).1, (h c).1, (h c).2⟩)
      (Cert.KernelIdeal.RefValue.run m ρ)
  · refine (θ_run Cert.ReferenceIdeal.defs _ _).mono (fun r h c => ?_) (Cert.ReferenceIdeal.Value.run (F := Ideal) m' ρ')
    obtain ⟨a0, a1, a2, a3, a4, a5⟩ := hagree c
    have eh : Cert.ReferenceIdeal.Value.res_main_v39 m' c = Cert.KernelIdeal.RefValue.finalHidden m c := by
      rw [Cert.ReferenceIdeal.Read.val_main_v39_eq, Cert.ReferenceIdeal.RefValue.hidden_eq, a0, a1, a2, a3, a4, a5]
    refine ⟨(h c).1.trans eh, (h c).2.1.trans eh, (h c).2.2.1.trans ((Cert.ReferenceIdeal.Read.val_main_v37_eq _ _ _ _ _ _).trans ?_), (h c).2.2.2⟩
    rw [Cert.ReferenceIdeal.RefValue.cell_eq, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
